-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x512 : Shape := ⟨2, ![128, 512]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x64 .f32) (main_arg1 : IVec S2x800000 32) (main_arg2 : FVec F S128x512 .f32) (main_arg3 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S128x512 : Shape := ⟨2, ![128, 512]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S800000x128 : Shape := ⟨2, ![800000, 128]⟩
abbrev S50000x256 : Shape := ⟨2, ![50000, 256]⟩
abbrev S800000x256 : Shape := ⟨2, ![800000, 256]⟩
abbrev S50000x512 : Shape := ⟨2, ![50000, 512]⟩
abbrev S512x128 : Shape := ⟨2, ![512, 128]⟩
abbrev S1x128 : Shape := ⟨2, ![1, 128]⟩
abbrev S2000x512 : Shape := ⟨2, ![2000, 512]⟩
abbrev S2000x128 : Shape := ⟨2, ![2000, 128]⟩

abbrev nBuf : Space → Nat
  | .hbm => 132
  | .vmem => 6
  | .smem => 0
  | _ => 0

abbrev hbmTy0_0 (i : Nat) : BufTy := match i % 128 with
  | 0 => ⟨S50000x64, .f32⟩
  | 1 => ⟨S2x800000, .i32⟩
  | 2 => ⟨S128x512, .f32⟩
  | 3 => ⟨S128, .f32⟩
  | 4 => ⟨S1x800000, .i32⟩
  | 5 => ⟨S800000, .i32⟩
  | 6 => ⟨S1x800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S50000x1, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S50000x1, .f32⟩
  | 60 => ⟨S50000x64, .f32⟩
  | 61 => ⟨S50000x64, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x1, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x1, .f32⟩
  | 93 => ⟨S50000x128, .f32⟩
  | 94 => ⟨S50000x128, .f32⟩
  | 95 => ⟨S50000x256, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x256, .f32⟩
  | 105 => ⟨S_, .f32⟩
  | 106 => ⟨S50000x256, .f32⟩
  | 107 => ⟨S800000x1, .i32⟩
  | 108 => ⟨S50000x256, .f32⟩
  | 109 => ⟨S50000x1, .f32⟩
  | 110 => ⟨S50000x256, .f32⟩
  | 111 => ⟨S50000x256, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x256, .f32⟩
  | 121 => ⟨S_, .f32⟩
  | 122 => ⟨S50000x256, .f32⟩
  | 123 => ⟨S800000x1, .i32⟩
  | 124 => ⟨S50000x256, .f32⟩
  | 125 => ⟨S50000x1, .f32⟩
  | 126 => ⟨S50000x256, .f32⟩
  | 127 => ⟨S50000x256, .f32⟩
  | _ => ⟨S50000x64, .f32⟩

abbrev hbmTy0_1 (i : Nat) : BufTy := match i % 128 with
  | 0 => ⟨S50000x512, .f32⟩
  | 1 => ⟨S512x128, .f32⟩
  | 2 => ⟨S1x128, .f32⟩
  | 3 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_17 : Ref sig .tc := ⟨.hbm, 96, rfl⟩
abbrev main_v73 : Ref sig .tc := ⟨.hbm, 97, rfl⟩
abbrev main_v74 : Ref sig .tc := ⟨.hbm, 98, rfl⟩
abbrev main_c_18 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_20 : Ref sig .tc := ⟨.hbm, 112, rfl⟩
abbrev main_v86 : Ref sig .tc := ⟨.hbm, 113, rfl⟩
abbrev main_v87 : Ref sig .tc := ⟨.hbm, 114, rfl⟩
abbrev main_c_21 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  transposes_S128x512_S512x128_1_0 : S128x512.Transposes [1, 0] S512x128
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v99) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v100) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v101) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v102) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x512 : Shape := ⟨2, ![128, 512]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S800000x128 : Shape := ⟨2, ![800000, 128]⟩
abbrev S50000x256 : Shape := ⟨2, ![50000, 256]⟩
abbrev S800000x256 : Shape := ⟨2, ![800000, 256]⟩
abbrev S50000x512 : Shape := ⟨2, ![50000, 512]⟩
abbrev S512x128 : Shape := ⟨2, ![512, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000x64, .f32⟩
  | 1 => ⟨S2x800000, .i32⟩
  | 2 => ⟨S128x512, .f32⟩
  | 3 => ⟨S128, .f32⟩
  | 4 => ⟨S1x800000, .i32⟩
  | 5 => ⟨S800000, .i32⟩
  | 6 => ⟨S1x800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S50000x1, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S50000x1, .f32⟩
  | 60 => ⟨S50000x64, .f32⟩
  | 61 => ⟨S50000x64, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x1, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x1, .f32⟩
  | 93 => ⟨S50000x128, .f32⟩
  | 94 => ⟨S50000x128, .f32⟩
  | 95 => ⟨S50000x256, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x256, .f32⟩
  | 105 => ⟨S_, .f32⟩
  | 106 => ⟨S50000x256, .f32⟩
  | 107 => ⟨S800000x1, .i32⟩
  | 108 => ⟨S50000x256, .f32⟩
  | 109 => ⟨S50000x1, .f32⟩
  | 110 => ⟨S50000x256, .f32⟩
  | 111 => ⟨S50000x256, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x256, .f32⟩
  | 121 => ⟨S_, .f32⟩
  | 122 => ⟨S50000x256, .f32⟩
  | 123 => ⟨S800000x1, .i32⟩
  | 124 => ⟨S50000x256, .f32⟩
  | 125 => ⟨S50000x1, .f32⟩
  | 126 => ⟨S50000x256, .f32⟩
  | 127 => ⟨S50000x256, .f32⟩
  | _ => ⟨S50000x64, .f32⟩

abbrev hbmTy0_1 (i : Nat) : BufTy := match i % 128 with
  | 0 => ⟨S50000x512, .f32⟩
  | 1 => ⟨S512x128, .f32⟩
  | 2 => ⟨S50000x128, .f32⟩
  | 3 => ⟨S1x128, .f32⟩
  | 4 => ⟨S50000x128, .f32⟩
  | 5 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_17 : Ref sig .tc := ⟨.hbm, 96, rfl⟩
abbrev main_v73 : Ref sig .tc := ⟨.hbm, 97, rfl⟩
abbrev main_v74 : Ref sig .tc := ⟨.hbm, 98, rfl⟩
abbrev main_c_18 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_20 : Ref sig .tc := ⟨.hbm, 112, rfl⟩
abbrev main_v86 : Ref sig .tc := ⟨.hbm, 113, rfl⟩
abbrev main_v87 : Ref sig .tc := ⟨.hbm, 114, rfl⟩
abbrev main_c_21 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  transposes_S128x512_S512x128_1_0 : S128x512.Transposes [1, 0] S512x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x512_S512x128_S50000x128_1_0_0_1_n_n_wf : DotDims.WF S50000x512 S512x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KernelBlock.lean ====
/-
  One grid point of the kernel, as arithmetic. The body loads a 2000 × 512 block x of the node features, the whole
  512 × 128 transposed weight matrix y and the 1 × 128 bias row z, and stores

      out[p, q] = (0 + Σ_k x[p, k] · y[k, q]) + z[0, q].

  On the extended reals the two casts to bf16 are the identity and the product into a zero accumulator is the plain
  sum, so the stored block is the linear layer restricted to the block's 2000 rows.
-/
import proofs.«118375_j67336497266901_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

/-! ## The block product's index maps: output (p, q) and contraction position k read x at (p, k) and y at (k, q) -/

theorem lhs_axis0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_axis1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_axis0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_axis1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The block product into the zero accumulator, at row p and column q: the sum over the 512 features. -/
theorem product_apply (x : FVec Ideal S2000x512 .bf16) (y : FVec Ideal S512x128 .bf16) (p : Fin 2000) (q : Fin 128) :
    matmul dot_S2000x512_S512x128_S2000x128_1_0_0_1_n_n none x y (constant (F := Ideal) S2000x128 .f32 0x00000000#32) (ix2 p q)
      = ∑ k : Fin 512, x (ix2 p k) * y (ix2 k q) := by
  show FloatOps.matmul dot_S2000x512_S512x128_S2000x128_1_0_0_1_n_n none x y (constant (F := Ideal) S2000x128 .f32 0x00000000#32) (ix2 p q) = _
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The bias row copied down the block's 2000 rows, at row p and column q: entry (0, q) of the row. -/
theorem bias_apply (z : FVec Ideal S1x128 .f32) (p : Fin 2000) (q : Fin 128) :
    broadcastTo S2000x128 z broadcasts_S1x128_S2000x128 (ix2 p q) = z (ix2 0 q) :=
  broadcastTo_apply z broadcasts_S1x128_S2000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- WHAT THE BODY STORES, at row p and column q of the block. -/
theorem payload_apply (x : Vec Ideal S2000x512 .f32) (y : Vec Ideal S512x128 .f32) (z : Vec Ideal S1x128 .f32) (p : Fin 2000) (q : Fin 128) :
    k0_pay1 (F := Ideal) x y z (ix2 p q) = (∑ k : Fin 512, x (ix2 p k) * y (ix2 k q)) + z (ix2 0 q) := by
  unfold k0_pay1
  simp only [shapeCast_self]
  refine (addf_apply _ _ _).trans ?_
  refine congrArg₂ (· + ·) ?_ ?_
  · exact product_apply _ _ p q
  · exact bias_apply z p q

end Cert.KernelIdeal.Block

end
-- ==== Proof.LinearLayer.lean ====
/-
  The linear layer as ONE function on the extended reals: entry (r, j) of the result is the sum over the 512
  features k of h[r, k] · wt[k, j], plus the bias b[j]. Both programs end at this function of the same three
  arrays — the aggregated node features h, the transposed weight matrix wt, the bias b. Reading a matrix product
  at an index is all that is needed: no distributivity, no cancellation, so the finiteness of the inputs is never
  used.
-/
import Idealize.ShloMosaic.PureOps.Ideal.Laws
import Idealize.ShloMosaic.Lib.ValueIdx

noncomputable section

namespace Cert.LinearLayer

open Idealize.ShloMosaic Idealize.ShloMosaic.ValueIdx

/-- `h · wt + b`: row `i 0` of `h` against column `i 1` of `wt`, plus entry `i 1` of the bias. -/
def linear (h : (⟨2, ![50000, 512]⟩ : Shape).Idx → EReal) (wt : (⟨2, ![512, 128]⟩ : Shape).Idx → EReal)
    (b : (⟨1, ![128]⟩ : Shape).Idx → EReal) : (⟨2, ![50000, 128]⟩ : Shape).Idx → EReal :=
  fun i => (∑ k : Fin 512, h (ix2 (i 0) k) * wt (ix2 k (i 1))) + b (ix1 (i 1))

/-- The same, at an index given by its row and column. -/
theorem linear_apply (h : (⟨2, ![50000, 512]⟩ : Shape).Idx → EReal) (wt : (⟨2, ![512, 128]⟩ : Shape).Idx → EReal)
    (b : (⟨1, ![128]⟩ : Shape).Idx → EReal) (r : Fin 50000) (j : Fin 128) :
    linear h wt b (ix2 r j) = (∑ k : Fin 512, h (ix2 r k) * wt (ix2 k j)) + b (ix1 j) := rfl

end Cert.LinearLayer

end
-- ==== Proof.KernelArray.lean ====
/-
  From grid points to the whole result array. The grid has 25 points; point t reads rows [2000·t, 2000·t + 2000) of
  the joined features, all of the transposed weights and the bias row, and writes rows [2000·t, 2000·t + 2000) of the
  result. Row 2000·t + p of the result therefore depends on row 2000·t + p of the features only, and what point t
  writes back is block t of ONE function of the three arrays the launch finds: the linear layer. The 25 row blocks
  tile the 50000 rows (row r lies in block r / 2000), so after the run the result array is that function.

  Which entries of the arrays a block holds is a matter of indices alone and is stated for any float values; only the
  arithmetic of one stored entry is read on the extended reals.
-/
import proofs.«118375_j67336497266901_1_alg».proof.Proof.Gen.KernelIdeal.Value
import proofs.«118375_j67336497266901_1_alg».proof.Proof.KernelBlock
import proofs.«118375_j67336497266901_1_alg».proof.Proof.LinearLayer

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.LinearLayer Cert.KernelIdeal.Block
open Idealize.ShloMosaic.Pipeline (Dat)

/-- A vector read off a one-row array: entry j of the vector is entry (0, j) of the row. -/
def rowOf {α : Type} (z : S1x128.Idx → α) : S128.Idx → α := fun j => z (ix2 0 (j 0))

theorem rowOf_apply {α : Type} (z : S1x128.Idx → α) (q : Fin 128) : rowOf z (ix1 q) = z (ix2 0 q) := rfl

theorem rowOf_def {α : Type} (z : S1x128.Idx → α) (j : S128.Idx) : rowOf z j = z (ix2 0 (j 0)) := rfl

/-! ## The index maps over the grid -/

theorem zero_offsets : (![0, 0] : Fin 2 → Nat) = fun _ => 0 := funext fun a => by fin_cases a <;> rfl

/-- Decided over the 25 points: the feature window and the result window sit at row block t, column block 0; the
    weights and the bias row never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Which entries a block holds, for any float values -/

section Blocks

variable {F : FTy → Type} [FloatOps F]
variable (m : (ℓ : Loc nD τ sig) → Buf (Elt F) ℓ)

/-- The three arrays the launch finds, at their literal types. -/
abbrev feats (c : Dev nD) : Vec F S50000x512 .f32 := V m c main_v99
abbrev wts (c : Dev nD) : Vec F S512x128 .f32 := V m c main_v100
abbrev biasRow (c : Dev nD) : Vec F S1x128 .f32 := V m c main_v101

/-- Entry (p, q) of the result window's block at point t is entry (2000·t + p, q) of the result array. -/
theorem result_index (t : Fin cfg0.N) (p : Fin 2000) (q : Fin 128) (r : Fin 50000) (hr : r.val = 2000 * t.val + p.val) :
    ((cfg0.win 3).blk t).view.emb (ix2 p q) = (ix2 r q : S50000x128.Idx) := by
  obtain ⟨-, -, -, -, -, -, e30, e31⟩ := idx_facts t
  refine funext fun a => Fin.ext ?_
  match a with
  | ⟨0, _⟩ => show win0_3.index t (0 : Fin 2) * 2000 + 1 * p.val = r.val; omega
  | ⟨1, _⟩ => show win0_3.index t (1 : Fin 2) * 128 + 1 * q.val = q.val; omega

/-- Row p of the feature block at point t is row 2000·t + p of the joined features. -/
theorem feats_block (c : Dev nD) (t : Fin cfg0.N) (p : Fin 2000) (k : Fin 512) (r : Fin 50000) (hr : r.val = 2000 * t.val + p.val) :
    iblk m c 0 t (ix2 p k) = feats m c (ix2 r k) := by
  obtain ⟨e00, e01, -, -, -, -, -, -⟩ := idx_facts t
  show V m c main_v99 (((cfg0.win 0).blk t).view.emb (ix2 p k)) = V m c main_v99 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 512 + 1 * k.val = k.val; omega

/-- The weights block at every point is the whole transposed weight matrix. -/
theorem wts_block (c : Dev nD) (t : Fin cfg0.N) (k : Fin 512) (q : Fin 128) :
    iblk m c 1 t (ix2 k q) = wts m c (ix2 k q) := by
  obtain ⟨-, -, e10, e11, -, -, -, -⟩ := idx_facts t
  show V m c main_v100 (((cfg0.win 1).blk t).view.emb (ix2 k q)) = V m c main_v100 (ix2 k q)
  refine congrArg _ (funext fun a => Fin.ext ?_)
  match a with
  | ⟨0, _⟩ => show win0_1.index t (0 : Fin 2) * 512 + 1 * k.val = k.val; omega
  | ⟨1, _⟩ => show win0_1.index t (1 : Fin 2) * 128 + 1 * q.val = q.val; omega

/-- The bias block at every point is the whole bias row. -/
theorem bias_block (c : Dev nD) (t : Fin cfg0.N) (q : Fin 128) :
    iblk m c 2 t (ix2 0 q) = biasRow m c (ix2 0 q) := by
  obtain ⟨-, -, -, -, e20, e21, -, -⟩ := idx_facts t
  show V m c main_v101 (((cfg0.win 2).blk t).view.emb (ix2 0 q)) = V m c main_v101 (ix2 0 q)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- WHAT POINT t WRITES BACK is block t of any function `G` that the body's stored value agrees with entry by entry. -/
theorem flushed_of (c : Dev nD) (t : Fin cfg0.N) (G : S50000x128.Idx → F .f32)
    (hG : ∀ (p : Fin 2000) (q : Fin 128),
      k0_pay1 (iblk m c 0 t) (iblk m c 1 t) (iblk m c 2 t) (ix2 p q) = G (((cfg0.win 3).blk t).view.emb (ix2 p q))) :
    (dats m 0 c).flushed 3 t = ((cfg0.win 3).blk t).view.read (Elt F) G := by
  rw [Cert.KernelIdeal.Value.flushed3]
  unfold out0_3
  rw [View.canon_unit_zero zero_offsets]
  simp only [View.ld_unit_zero (S := S2000x512) zero_offsets, View.ld_unit_zero (S := S512x128) zero_offsets,
    View.ld_unit_zero (S := S1x128) zero_offsets]
  funext j
  obtain ⟨p, q, rfl⟩ : ∃ (p : Fin 2000) (q : Fin 128), j = ix2 p q := ⟨j 0, j 1, eq_ix2 j⟩
  exact hG p q

/-! ## The row blocks tile the array -/

/-- An index of the result array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v102).slice (win0_3.rect t)).set ↔ _
  rw [View.set_slice_whole, Rect.mem_set_unit]
  exact Iff.rfl

/-- Row r lies in the block of point r / 2000. -/
theorem covered (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 25 := N_0
  refine ⟨⟨(i 0).val / 2000, by rw [hN]; omega⟩, flush0_3 _, ?_⟩
  rw [mem_blk]
  obtain ⟨-, -, -, -, -, -, e30, e31⟩ := idx_facts ⟨(i 0).val / 2000, by rw [hN]; omega⟩
  intro a
  match a with
  | ⟨0, _⟩ =>
    show win0_3.index ⟨(i 0).val / 2000, _⟩ (0 : Fin 2) * 2000 ≤ (i 0).val ∧ (i 0).val < win0_3.index ⟨(i 0).val / 2000, _⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, _⟩ (1 : Fin 2) * 128 ≤ (i 1).val ∧ (i 1).val < win0_3.index ⟨(i 0).val / 2000, _⟩ (1 : Fin 2) * 128 + 128
    rw [e31]; omega

end Blocks

/-! ## On the extended reals: the stored block is the linear layer's -/

variable (m : (ℓ : Loc nD τ sig) → Buf (Elt Ideal) ℓ) (ρ : Dev nD → PrngReg)

/-- The linear layer of the three arrays the launch finds (the bias read off its one row). -/
def result (c : Dev nD) : S50000x128.Idx → EReal :=
  linear (feats m c) (wts m c) (rowOf (biasRow m c))

theorem flushed_eq (c : Dev nD) (t : Fin cfg0.N) :
    (dats m 0 c).flushed 3 t = ((cfg0.win 3).blk t).view.read (Elt Ideal) (result m c) :=
  flushed_of m c t (result m c) fun p q => by
    have ht : t.val < 25 := lt_of_lt_of_eq t.isLt N_0
    have hp : p.val < 2000 := p.isLt
    rw [result_index t p q ⟨2000 * t.val + p.val, by omega⟩ rfl, payload_apply, result, linear_apply, rowOf_apply,
      bias_block m c t q]
    exact congrArg (· + biasRow m c (ix2 0 q)) (Finset.sum_congr rfl fun k _ => by
      rw [feats_block m c t p k ⟨2000 * t.val + p.val, by omega⟩ rfl, wts_block m c t k q])

/-- After the run the result array is the linear layer of the three arrays the launch found. -/
theorem final (c : Dev nD) : (dats m 0 c).arrAt 3 cfg0.N = result m c :=
  (dats m 0 c).arrAt_eq_of_cover 3 (result m c) (fun t _ => flushed_eq m c t) covered

/-- The kernel's run, read: the result array at the linear layer, the arguments unchanged. -/
theorem run : θ_run defs (onTc (τ := τ) (main (F := Ideal))) ⟨m, fun _ => 0, ρ⟩ fun r => ∀ c : Dev nD,
      r.2.mem ((c : Thread nD τ).loc main_v102) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.LibConcatPair.lean ====
/-
  Joining two arrays along an axis, with the two operands as plain arguments.

  The library's `concatenate` takes its operands as a list of (shape, array) pairs and a proof about that list's
  shapes; because the proof's statement mentions the list, a rewriting pass may not change an operand in place.
  `join2` is the same function with the two arrays as ordinary arguments and the proof stated over the two shapes
  only, so an equation between operands rewrites under it; `concatenate_pair` turns the one into the other.
-/
import Idealize.ShloMosaic.PureOps.ShapeOps

noncomputable section

namespace Cert.ConcatPair

open Idealize.ShloMosaic

/-- Two arrays of shapes `s₁`, `s₂` joined along axis `a` of the result shape `t`. -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A `concatenate` of exactly two operands is their `join2`. -/
theorem concatenate_pair {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = join2 t a s₁ s₂ h x y := rfl

end Cert.ConcatPair

end
-- ==== Proof.HostPrefix.lean ====
/-
  What the kernel's launch finds in its weight and bias operands: the host transposes the weight argument and lays
  the bias argument out as one row just before the launch, and nothing else writes those two buffers.
-/
import proofs.«118375_j67336497266901_1_alg».proof.Proof.Gen.KernelIdeal.Frame
import proofs.«118375_j67336497266901_1_alg».proof.Proof.LibConcatPair
import Idealize.ShloMosaic.Lib.StableHlo.Run
import Idealize.ShloMosaic.Lib.ValueIdx
import Idealize.ShloMosaic.Lib.Pipeline.Value

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx Cert.ConcatPair

variable {F : FTy → Type} [FloatOps F]

set_option maxHeartbeats 4000000 in
/-- The weights buffer after the host operations: the transpose of the weight argument. -/
theorem weights_after (L : Valuation τ sig (Elt F)) :
    after (hostOps0 (F := F)) L (Proc.devRef .tc main_v100)
      = transpose S512x128 [1, 0] (L (Proc.devRef .tc main_arg2)) transposes_S128x512_S512x128_1_0 := by
  dsimp only [hostOps0]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]

set_option maxHeartbeats 4000000 in
/-- The bias-row buffer after the host operations: the bias argument laid out as one row. -/
theorem bias_after (L : Valuation τ sig (Elt F)) :
    after (hostOps0 (F := F)) L (Proc.devRef .tc main_v101)
      = shapeCast S1x128 (L (Proc.devRef .tc main_arg3)) shapeCasts_S128_S1x128 := by
  dsimp only [hostOps0]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]
  rfl

/-- Entry (0, q) of a vector laid out as one row is entry q of the vector. -/
theorem row_apply (b : S128.Idx → F .f32) (q : Fin 128) :
    shapeCast S1x128 b shapeCasts_S128_S1x128 (ix2 0 q) = b (ix1 q) :=
  shapeCast_apply _ shapeCasts_S128_S1x128 (ix2 0 q) (ix1 q) (by
    rw [Shape.rowMajor_val_one, Shape.rowMajor_val_two]
    show q.val = 0 * 128 + q.val
    omega)

end Cert.KernelIdeal.HostPrefix

end
-- ==== Proof.PrefixEq.lean ====
/-
  The two programs aggregate alike. Before its launch the kernel's program runs, operation for operation, the
  reference's own first 125 operations — the edge list split into sources and destinations, the two degree counts and
  their clamped reciprocals, and three hops of gather, scatter-add, scaling and joining — on buffers of the same
  shapes. Reading the joined-feature buffer back through either list gives the same expression of the feature and edge
  arguments, so from launch contents that agree on those two arguments the two buffers hold the same array. This holds
  for any float values, and is stated so.
-/
import proofs.«118375_j67336497266901_1_alg».proof.Proof.RefRun
import proofs.«118375_j67336497266901_1_alg».proof.Proof.Gen.KernelIdeal.Launch
import proofs.«118375_j67336497266901_1_alg».proof.Proof.LibConcatPair

set_option maxRecDepth 16384

noncomputable section

namespace Cert.PrefixEq

open Idealize.ShloMosaic Idealize.ShloMosaic.TcCoe Idealize.SL.Sem Idealize.ShloMosaic.StableHlo Cert.ConcatPair

variable {F : FTy → Type} [FloatOps F]

set_option maxHeartbeats 80000000 in
/-- The joined features after the reference's first 126 operations are the joined features the kernel's launch finds. -/
theorem features_same (Lk : Valuation Cert.KernelIdeal.τ Cert.KernelIdeal.sig (Elt F))
    (Lr : Valuation Cert.ReferenceIdeal.τ Cert.ReferenceIdeal.sig (Elt F))
    (h0 : Lr (Proc.devRef .tc Cert.ReferenceIdeal.main_arg0) = Lk (Proc.devRef .tc Cert.KernelIdeal.main_arg0))
    (h1 : Lr (Proc.devRef .tc Cert.ReferenceIdeal.main_arg1) = Lk (Proc.devRef .tc Cert.KernelIdeal.main_arg1)) :
    (after (Cert.ReferenceIdeal.RunP.ops_pre (F := F)) Lr (Proc.devRef .tc Cert.ReferenceIdeal.main_v99) : Cert.ReferenceIdeal.S50000x512.Idx → F .f32)
      = after (Cert.KernelIdeal.Gen.hostOps0 (F := F)) Lk (Proc.devRef .tc Cert.KernelIdeal.main_v99) := by
  simp only [Cert.ReferenceIdeal.RunP.ops_pre, Cert.ReferenceIdeal.RunP.ops_part0, Cert.ReferenceIdeal.RunP.ops_part1,
    Cert.ReferenceIdeal.RunP.ops_part2a, Cert.KernelIdeal.Gen.hostOps0, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair, h0, h1]
  rfl

end Cert.PrefixEq

end
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.RefTail.lean ====
/-
  Reading the reference's folded run. The run leaves every buffer at the fold of the 130 operations over the launch
  contents. No operation writes an argument, so the four arguments end as launched. The result buffer is written by
  the last four operations, which read only the joined features, the transposed weights and the bias as the first 126
  operations leave them; among those the weights are the transpose of the weight argument and the bias is untouched.
-/
import proofs.«118375_j67336497266901_1_alg».proof.Proof.RefRun
import proofs.«118375_j67336497266901_1_alg».proof.Proof.LibConcatPair
import proofs.«118375_j67336497266901_1_alg».proof.Proof.LibHostStretch

set_option maxRecDepth 16384

noncomputable section

namespace Cert.ReferenceIdeal.Tail

open Cert.ReferenceIdeal Cert.ReferenceIdeal.Gen Cert.ReferenceIdeal.RunP Idealize.ShloMosaic Idealize.ShloMosaic.TcCoe
open Idealize.SL.Sem Idealize.ShloMosaic.StableHlo Cert.ConcatPair

variable {F : FTy → Type} [FloatOps F]

/-- The last four operations over any contents `W`: the product of `W`'s features and weights plus `W`'s bias
    copied along the rows. -/
theorem tail_result (W : Valuation τ sig (Elt F)) :
    after (ops_part2b (F := F)) W (Proc.devRef .tc main_v104)
      = addf (Host.dotGeneral dot_S50000x512_S512x128_S50000x128_1_0_0_1_n_n none (W (Proc.devRef .tc main_v99)) (W (Proc.devRef .tc main_v100)))
          (broadcastInDim S50000x128 ![0, 1] bcast_S1x128_S50000x128_0_1
            (broadcastInDim S1x128 ![1] bcast_S128_S1x128_1 (W (Proc.devRef .tc main_arg3)))) := by
  dsimp only [ops_part2b]
  after_results

/-- The whole run's result buffer, over the contents the first 126 operations leave. -/
theorem result_eq (L : Valuation τ sig (Elt F)) :
    after (ops (F := F)) L (Proc.devRef .tc main_v104)
      = addf (Host.dotGeneral dot_S50000x512_S512x128_S50000x128_1_0_0_1_n_n none (after (ops_pre (F := F)) L (Proc.devRef .tc main_v99)) (after (ops_pre (F := F)) L (Proc.devRef .tc main_v100)))
          (broadcastInDim S50000x128 ![0, 1] bcast_S1x128_S50000x128_0_1
            (broadcastInDim S1x128 ![1] bcast_S128_S1x128_1 (after (ops_pre (F := F)) L (Proc.devRef .tc main_arg3)))) := by
  rw [ops_eq_pre, Cert.GraphConv.after_append]
  exact tail_result _

set_option maxHeartbeats 4000000 in
/-- Among the first 126 operations only the transpose writes the weights buffer. -/
theorem pre_weights (L : Valuation τ sig (Elt F)) :
    after (ops_pre (F := F)) L (Proc.devRef .tc main_v100)
      = transpose S512x128 [1, 0] (L (Proc.devRef .tc main_arg2)) transposes_S128x512_S512x128_1_0 := by
  simp only [ops_pre, ops_part0, ops_part1, ops_part2a, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]

set_option maxHeartbeats 4000000 in
/-- None of the first 126 operations writes the bias. -/
theorem pre_bias (L : Valuation τ sig (Elt F)) :
    after (ops_pre (F := F)) L (Proc.devRef .tc main_arg3) = L (Proc.devRef .tc main_arg3) := by
  simp only [ops_pre, ops_part0, ops_part1, ops_part2a, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]

set_option maxHeartbeats 4000000 in
/-- No operation writes an argument. -/
theorem kept_arg0 (L : Valuation τ sig (Elt F)) : after (ops (F := F)) L (Proc.devRef .tc main_arg0) = L (Proc.devRef .tc main_arg0) := by
  simp only [ops, ops_part0, ops_part1, ops_part2a, ops_part2b, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]
set_option maxHeartbeats 4000000 in
theorem kept_arg1 (L : Valuation τ sig (Elt F)) : after (ops (F := F)) L (Proc.devRef .tc main_arg1) = L (Proc.devRef .tc main_arg1) := by
  simp only [ops, ops_part0, ops_part1, ops_part2a, ops_part2b, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]
set_option maxHeartbeats 4000000 in
theorem kept_arg2 (L : Valuation τ sig (Elt F)) : after (ops (F := F)) L (Proc.devRef .tc main_arg2) = L (Proc.devRef .tc main_arg2) := by
  simp only [ops, ops_part0, ops_part1, ops_part2a, ops_part2b, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]
set_option maxHeartbeats 4000000 in
theorem kept_arg3 (L : Valuation τ sig (Elt F)) : after (ops (F := F)) L (Proc.devRef .tc main_arg3) = L (Proc.devRef .tc main_arg3) := by
  simp only [ops, ops_part0, ops_part1, ops_part2a, ops_part2b, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]

end Cert.ReferenceIdeal.Tail

end
-- ==== Proof.ReferenceLinear.lean ====
/-
  The reference's last four operations are the linear layer: the product of the aggregated features h with the
  transposed weights wt, contracted over the 512 features, plus the bias b copied to a row and then down the 50000
  rows. Read at an index (r, j) this is Σ_k h[r, k] · wt[k, j] + b[j], whatever h, wt and b are.
-/
import proofs.«118375_j67336497266901_1_alg».proof.Proof.Gen.ReferenceIdeal
import proofs.«118375_j67336497266901_1_alg».proof.Proof.LinearLayer
import Idealize.ShloMosaic.PureOps.Ideal.Laws
import Idealize.ShloMosaic.Lib.ValueIdx
import Idealize.ShloMosaic.Lib.Pipeline.Value

noncomputable section

namespace Cert.ReferenceIdeal.Linear

open Cert.ReferenceIdeal Cert.ReferenceIdeal.Gen Idealize.ShloMosaic Idealize.ShloMosaic.ValueIdx Cert.LinearLayer

/-! ## The product's index maps: output (r, j) and contraction position k read h at (r, k) and wt at (k, j) -/

theorem lhs_axis0 (i : S50000x128.Idx) (q : dot_S50000x512_S512x128_S50000x128_1_0_0_1_n_n.contr.Idx) :
    (dot_S50000x512_S512x128_S50000x128_1_0_0_1_n_n.lhsIdx i q 0).val = (i 0).val := by
  unfold DotDims.lhsIdx
  rw [dif_neg (show ¬(0 : Fin S50000x512.rank) ∈ dot_S50000x512_S512x128_S50000x128_1_0_0_1_n_n.lhsBatch by decide), dif_pos (show (0 : Fin S50000x512.rank) ∈ dot_S50000x512_S512x128_S50000x128_1_0_0_1_n_n.lhsNonContracting by decide)]
  rfl
theorem lhs_axis1 (i : S50000x128.Idx) (q : dot_S50000x512_S512x128_S50000x128_1_0_0_1_n_n.contr.Idx) :
    (dot_S50000x512_S512x128_S50000x128_1_0_0_1_n_n.lhsIdx i q 1).val = (q ⟨0, by decide⟩).val :=
  dot_S50000x512_S512x128_S50000x128_1_0_0_1_n_n.lhsIdx_val_of_single rfl i q
theorem rhs_axis0 (i : S50000x128.Idx) (q : dot_S50000x512_S512x128_S50000x128_1_0_0_1_n_n.contr.Idx) :
    (dot_S50000x512_S512x128_S50000x128_1_0_0_1_n_n.rhsIdx i q 0).val = (q ⟨0, by decide⟩).val :=
  dot_S50000x512_S512x128_S50000x128_1_0_0_1_n_n.rhsIdx_val_of_single rfl i q
theorem rhs_axis1 (i : S50000x128.Idx) (q : dot_S50000x512_S512x128_S50000x128_1_0_0_1_n_n.contr.Idx) :
    (dot_S50000x512_S512x128_S50000x128_1_0_0_1_n_n.rhsIdx i q 1).val = (i 1).val := by
  unfold DotDims.rhsIdx
  rw [dif_neg (show ¬(1 : Fin S512x128.rank) ∈ dot_S50000x512_S512x128_S50000x128_1_0_0_1_n_n.rhsBatch by decide), dif_pos (show (1 : Fin S512x128.rank) ∈ dot_S50000x512_S512x128_S50000x128_1_0_0_1_n_n.rhsNonContracting by decide)]
  rfl

/-- The host's product at (r, j): the sum over the 512 features. -/
theorem product_apply (h : FVec Ideal S50000x512 .f32) (wt : FVec Ideal S512x128 .f32) (i : S50000x128.Idx) :
    Host.dotGeneral dot_S50000x512_S512x128_S50000x128_1_0_0_1_n_n none h wt i = ∑ k : Fin 512, h (ix2 (i 0) k) * wt (ix2 k (i 1)) := by
  simp only [Host.dotGeneral]
  rw [Ideal.dotGeneral_apply, ← Equiv.sum_comp (contrEquiv1 dot_S50000x512_S512x128_S50000x128_1_0_0_1_n_n 512 rfl rfl).symm]
  refine Finset.sum_congr rfl fun k _ => ?_
  have hk := contrEquiv1_symm_val dot_S50000x512_S512x128_S50000x128_1_0_0_1_n_n 512 rfl rfl k
  have el : dot_S50000x512_S512x128_S50000x128_1_0_0_1_n_n.lhsIdx i ((contrEquiv1 dot_S50000x512_S512x128_S50000x128_1_0_0_1_n_n 512 rfl rfl).symm k) = ix2 (i 0) k := funext fun a => Fin.ext (by
    match a with
    | ⟨0, _⟩ => exact lhs_axis0 _ _
    | ⟨1, _⟩ => exact (lhs_axis1 _ _).trans hk)
  have er : dot_S50000x512_S512x128_S50000x128_1_0_0_1_n_n.rhsIdx i ((contrEquiv1 dot_S50000x512_S512x128_S50000x128_1_0_0_1_n_n 512 rfl rfl).symm k) = ix2 k (i 1) := funext fun a => Fin.ext (by
    match a with
    | ⟨0, _⟩ => exact (rhs_axis0 _ _).trans hk
    | ⟨1, _⟩ => exact rhs_axis1 _ _)
  rw [el, er]
  rfl

/-- The bias copied to a row and then down the rows, at (r, j): entry j of the bias. -/
theorem bias_apply (b : FVec Ideal S128 .f32) (i : S50000x128.Idx) :
    broadcastInDim S50000x128 ![0, 1] bcast_S1x128_S50000x128_0_1 (broadcastInDim S1x128 ![1] bcast_S128_S1x128_1 b) i = b (ix1 (i 1)) := by
  rw [broadcastInDim_apply _ bcast_S1x128_S50000x128_0_1 _ i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b (ix2 0 (i 1)) (ix1 (i 1)) (fun a => match a with
    | ⟨0, _⟩ => by show (i 1).val = if (128 : Nat) = 1 then 0 else (i 1).val; rw [if_neg (by decide)])

/-- THE REFERENCE'S LAST FOUR OPERATIONS are the linear layer of their three inputs. -/
theorem tail_eq_linear (h : FVec Ideal S50000x512 .f32) (wt : FVec Ideal S512x128 .f32) (b : FVec Ideal S128 .f32) :
    addf (Host.dotGeneral dot_S50000x512_S512x128_S50000x128_1_0_0_1_n_n none h wt)
        (broadcastInDim S50000x128 ![0, 1] bcast_S1x128_S50000x128_0_1 (broadcastInDim S1x128 ![1] bcast_S128_S1x128_1 b))
      = linear h wt b := by
  funext i
  refine (addf_apply _ _ _).trans ?_
  rw [product_apply, bias_apply]
  rfl

end Cert.ReferenceIdeal.Linear

end
-- ==== Proof.Bridge.lean ====
/-
  The two results are one function. The kernel's result array is the linear layer of the three arrays its launch
  finds: the joined features, the transpose of the weight argument, the bias argument laid out as a row. The
  reference's result buffer is the linear layer of the joined features its first 126 operations leave, the transpose of
  its weight argument and its bias argument. The two joined-feature arrays are equal when the feature and edge
  arguments agree, so from memories that agree on the four arguments the two programs end with equal result arrays.
-/
import proofs.«118375_j67336497266901_1_alg».proof.Proof.KernelArray
import proofs.«118375_j67336497266901_1_alg».proof.Proof.HostPrefix
import proofs.«118375_j67336497266901_1_alg».proof.Proof.PrefixEq
import proofs.«118375_j67336497266901_1_alg».proof.Proof.RefTail
import proofs.«118375_j67336497266901_1_alg».proof.Proof.ReferenceLinear

noncomputable section

namespace Cert.Bridge

open Idealize.ShloMosaic Idealize.ShloMosaic.TcCoe Idealize.SL.Sem Idealize.ShloMosaic.StableHlo
open Idealize.ShloMosaic.ValueIdx Cert.LinearLayer

/-- The kernel's result, over the joined features its launch finds and its weight and bias arguments. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.Whole.result m c
      = linear (Cert.KernelIdeal.Gen.V m c Cert.KernelIdeal.main_v99)
          (transpose Cert.KernelIdeal.S512x128 [1, 0] (m ((c : Thread Cert.KernelIdeal.nD Cert.KernelIdeal.τ).loc Cert.KernelIdeal.main_arg2)) Cert.KernelIdeal.Gen.transposes_S128x512_S512x128_1_0)
          (m ((c : Thread Cert.KernelIdeal.nD Cert.KernelIdeal.τ).loc Cert.KernelIdeal.main_arg3)) := by
  have hw : (Cert.KernelIdeal.Whole.wts m c : Cert.KernelIdeal.S512x128.Idx → EReal)
      = transpose Cert.KernelIdeal.S512x128 [1, 0] (m ((c : Thread Cert.KernelIdeal.nD Cert.KernelIdeal.τ).loc Cert.KernelIdeal.main_arg2)) Cert.KernelIdeal.Gen.transposes_S128x512_S512x128_1_0 :=
    Cert.KernelIdeal.HostPrefix.weights_after (F := Ideal) (fun b => m (c, b))
  have hr : (Cert.KernelIdeal.Whole.biasRow m c : Cert.KernelIdeal.S1x128.Idx → EReal)
      = shapeCast Cert.KernelIdeal.S1x128 (m ((c : Thread Cert.KernelIdeal.nD Cert.KernelIdeal.τ).loc Cert.KernelIdeal.main_arg3)) Cert.KernelIdeal.Gen.shapeCasts_S128_S1x128 :=
    Cert.KernelIdeal.HostPrefix.bias_after (F := Ideal) (fun b => m (c, b))
  have hb : Cert.KernelIdeal.Whole.rowOf (Cert.KernelIdeal.Whole.biasRow m c)
      = (m ((c : Thread Cert.KernelIdeal.nD Cert.KernelIdeal.τ).loc Cert.KernelIdeal.main_arg3) : Cert.KernelIdeal.S128.Idx → EReal) :=
    funext fun j => by
      rw [Cert.KernelIdeal.Whole.rowOf_def, hr]
      exact (Cert.KernelIdeal.HostPrefix.row_apply (F := Ideal) _ (j 0)).trans (congrArg _ (eq_ix1 j).symm)
  unfold Cert.KernelIdeal.Whole.result
  rw [hb, hw]

/-- The reference's result buffer after its run, over the joined features its first 126 operations leave and its
    weight and bias arguments. -/
theorem reference_result_eq (L : Valuation Cert.ReferenceIdeal.τ Cert.ReferenceIdeal.sig (Elt Ideal)) :
    (after (Cert.ReferenceIdeal.RunP.ops (F := Ideal)) L (Proc.devRef .tc Cert.ReferenceIdeal.main_v104) : Cert.ReferenceIdeal.S50000x128.Idx → EReal)
      = linear (after (Cert.ReferenceIdeal.RunP.ops_pre (F := Ideal)) L (Proc.devRef .tc Cert.ReferenceIdeal.main_v99))
          (transpose Cert.ReferenceIdeal.S512x128 [1, 0] (L (Proc.devRef .tc Cert.ReferenceIdeal.main_arg2)) Cert.ReferenceIdeal.Gen.transposes_S128x512_S512x128_1_0)
          (L (Proc.devRef .tc Cert.ReferenceIdeal.main_arg3)) := by
  rw [Cert.ReferenceIdeal.Tail.result_eq, Cert.ReferenceIdeal.Tail.pre_weights, Cert.ReferenceIdeal.Tail.pre_bias]
  exact Cert.ReferenceIdeal.Linear.tail_eq_linear _ _ _

/-- From memories that agree on the four arguments, the reference's result buffer ends at the kernel's result. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (after (Cert.ReferenceIdeal.RunP.ops (F := Ideal)) (launchContents m' c) (Proc.devRef .tc Cert.ReferenceIdeal.main_v104) : Cert.ReferenceIdeal.S50000x128.Idx → EReal)
      = Cert.KernelIdeal.Whole.result m c := by
  rw [reference_result_eq, kernel_result_eq,
    Cert.PrefixEq.features_same (F := Ideal) (fun b => m (c, b)) (launchContents m' c) h0 h1]
  show linear _ (transpose _ _ (m' ((c.tc : Thread Cert.ReferenceIdeal.nD Cert.ReferenceIdeal.τ).loc Cert.ReferenceIdeal.main_arg2)) _)
      (m' ((c.tc : Thread Cert.ReferenceIdeal.nD Cert.ReferenceIdeal.τ).loc Cert.ReferenceIdeal.main_arg3)) = _
  rw [h2, h3]

end Cert.Bridge

end
-- ==== Proof.lean ====
/-
  Directed-SAGE aggregation followed by a linear projection. Both programs compute, on the host and with the same
  operations, three hops of mean aggregation over the edge list in both directions (gather, scatter-add, scale by the
  clamped reciprocal degree, join: 64 → 128 → 256 → 512 features per node). They differ only in the last step: the
  reference multiplies the 50000 × 512 feature matrix by the transposed 128 × 512 weights and adds the bias; the kernel
  does that product on a grid of 25 row blocks of 2000 nodes, its operands rounded to bf16 and accumulated into a zero
  f32 accumulator, and adds the bias row inside the body.

  On the extended reals a change of float format is the identity and a product into a zero accumulator is the plain sum
  over the 512 features, so each block the kernel writes is the corresponding 2000 rows of

      out[r, j] = Σ_k h[r, k] · W[j, k] + b[j],

  the blocks tile the 50000 rows, and the reference's last four operations are the same function of the same h, Wᵀ and
  b. Only the index-by-index reading of the two sums is used; the finiteness precondition is never opened. The
  idealization rewrote nothing, so the preservation claim is trivial. The kernel's two frames are the generated ones;
  the reference's is its run with the result forgotten: no operation writes an argument.
-/
import proofs.«118375_j67336497266901_1_alg».proof.Defs
import proofs.«118375_j67336497266901_1_alg».proof.Proof.Gen.Kernel
import proofs.«118375_j67336497266901_1_alg».proof.Proof.Gen.Kernel.Skeleton
import proofs.«118375_j67336497266901_1_alg».proof.Proof.Gen.Kernel.Launch
import proofs.«118375_j67336497266901_1_alg».proof.Proof.Gen.Kernel.Points
import proofs.«118375_j67336497266901_1_alg».proof.Proof.Gen.Kernel.Frame
import proofs.«118375_j67336497266901_1_alg».proof.Proof.Gen.KernelIdeal
import proofs.«118375_j67336497266901_1_alg».proof.Proof.Gen.KernelIdeal.Skeleton
import proofs.«118375_j67336497266901_1_alg».proof.Proof.Gen.KernelIdeal.Launch
import proofs.«118375_j67336497266901_1_alg».proof.Proof.Gen.KernelIdeal.Points
import proofs.«118375_j67336497266901_1_alg».proof.Proof.Gen.KernelIdeal.Frame
import proofs.«118375_j67336497266901_1_alg».proof.Proof.Gen.ReferenceIdeal
import proofs.«118375_j67336497266901_1_alg».proof.Proof.Gen.Pre_finite_inputs
import proofs.«118375_j67336497266901_1_alg».proof.Proof.Gen.KernelIdeal.Value
import proofs.«118375_j67336497266901_1_alg».proof.Proof.Bridge
import Idealize.ShloMosaic.Adequacy
import Idealize.ShloMosaic.Init

noncomputable section

namespace Cert.Proof

open Idealize.ShloMosaic Idealize.SL.Sem

/-- The kernel's frame and its idealization's are generated whole. -/
theorem frame_kernel : Cert.frame_Kernel := fun m ρ _ => Cert.Kernel.Gen.frame m ρ
theorem frame_kernelIdeal : Cert.frame_KernelIdeal := fun m ρ _ => Cert.KernelIdeal.Gen.frame m ρ

/-- The reference's frame: its run leaves every buffer at the fold of its operations, and none writes an argument. -/
theorem frame_referenceIdeal : Cert.frame_ReferenceIdeal := fun m ρ _ =>
  (θ_run Cert.ReferenceIdeal.defs _ _).mono (fun _ h c =>
      ⟨(h c Cert.ReferenceIdeal.main_arg0).trans (Cert.ReferenceIdeal.Tail.kept_arg0 _),
       (h c Cert.ReferenceIdeal.main_arg1).trans (Cert.ReferenceIdeal.Tail.kept_arg1 _),
       (h c Cert.ReferenceIdeal.main_arg2).trans (Cert.ReferenceIdeal.Tail.kept_arg2 _),
       (h c Cert.ReferenceIdeal.main_arg3).trans (Cert.ReferenceIdeal.Tail.kept_arg3 _)⟩)
    (Cert.ReferenceIdeal.RunP.run (F := Ideal) m ρ)

/-- From memories that agree on the arguments both programs end at the linear layer of the joined features, the
    transposed weights and the bias of the kernel's arguments. -/
theorem algebraic : Cert.algebraic_KernelIdeal_ReferenceIdeal := by
  intro m ρ m' ρ' _ hagree
  refine ⟨fun c => Cert.KernelIdeal.Whole.result m c, Cert.KernelIdeal.Whole.run m ρ, ?_⟩
  exact (θ_run Cert.ReferenceIdeal.defs _ _).mono (fun _ h c =>
      ⟨(h c Cert.ReferenceIdeal.main_v104).trans
          (Cert.Bridge.results_agree m m' c (hagree c).1 (hagree c).2.1 (hagree c).2.2.1 (hagree c).2.2.2),
       (h c Cert.ReferenceIdeal.main_arg0).trans (Cert.ReferenceIdeal.Tail.kept_arg0 _),
       (h c Cert.ReferenceIdeal.main_arg1).trans (Cert.ReferenceIdeal.Tail.kept_arg1 _),
       (h c Cert.ReferenceIdeal.main_arg2).trans (Cert.ReferenceIdeal.Tail.kept_arg2 _),
       (h c Cert.ReferenceIdeal.main_arg3).trans (Cert.ReferenceIdeal.Tail.kept_arg3 _)⟩)
    (Cert.ReferenceIdeal.RunP.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
